-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x192x512 : Shape := ⟨3, ![16, 192, 512]⟩
abbrev S16x512 : Shape := ⟨2, ![16, 512]⟩
abbrev S16x2048 : Shape := ⟨2, ![16, 2048]⟩
abbrev S_ : Shape := ⟨0, ![]⟩

class Facts : Prop where
  bcast_S_S16x192x512 : S_.BroadcastsInDim S16x192x512 (![] : Fin 0 → Fin S16x192x512.rank)
  reducesTo_S16x192x512_S_d0_1_2 : S16x192x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S16x192x512 .f32) (main_arg1 : IVec S16x512 32) (main_arg2 : FVec F S16x512 .f32) (main_arg3 : FVec F S16x2048 .f32) : IVec S_ 1 :=
  let main_v0 : FVec F S16x192x512 .f32 := Host.absf main_arg0
  let main_cst : FVec F S_ .f32 := constant S_ .f32 0x7F800000#32
  let main_v1 : FVec F S16x192x512 .f32 := broadcastInDim S16x192x512 ![] bcast_S_S16x192x512 main_cst
  let main_v2 : IVec S16x192x512 1 := cmpf .olt main_v0 main_v1
  let main_c : IVec S_ 1 := constantI S_ 1 1#1
  let main_v3 : IVec S_ 1 := (fun x v => Host.reduce IntOp.andi x v reducesTo_S16x192x512_S_d0_1_2 h_S_) main_v2 main_c
  let main_v4 : FVec F S16x512 .f32 := Host.absf main_arg2
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x2048 .f32 := Host.absf main_arg3
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  main_v13
-- ==== Kernel.lean ====
abbrev S16x192x512 : Shape := ⟨3, ![16, 192, 512]⟩
abbrev S16x512 : Shape := ⟨2, ![16, 512]⟩
abbrev S16x2048 : Shape := ⟨2, ![16, 2048]⟩
abbrev S_ : Shape := ⟨0, ![]⟩
abbrev S16x1x512 : Shape := ⟨3, ![16, 1, 512]⟩
abbrev S16x1x2048 : Shape := ⟨3, ![16, 1, 2048]⟩
abbrev S16x192x2048 : Shape := ⟨3, ![16, 192, 2048]⟩
abbrev S1x192x512 : Shape := ⟨3, ![1, 192, 512]⟩
abbrev S1x1x512 : Shape := ⟨3, ![1, 1, 512]⟩
abbrev S512x512 : Shape := ⟨2, ![512, 512]⟩
abbrev S512 : Shape := ⟨1, ![512]⟩
abbrev S1x512 : Shape := ⟨2, ![1, 512]⟩
abbrev S192x512 : Shape := ⟨2, ![192, 512]⟩

abbrev nBuf : Space → Nat
  | .hbm => 16
  | .vmem => 12
  | .smem => 0
  | _ => 0

abbrev bufTy : (tb : Table) → Fin (tcTables nBuf tb) → BufTy
  | .hbm, ⟨0, _⟩ => ⟨S16x192x512, .f32⟩
  | .hbm, ⟨1, _⟩ => ⟨S16x512, .i32⟩
  | .hbm, ⟨2, _⟩ => ⟨S16x512, .f32⟩
  | .hbm, ⟨3, _⟩ => ⟨S16x2048, .f32⟩
  | .hbm, ⟨4, _⟩ => ⟨S16x512, .f32⟩
  | .hbm, ⟨5, _⟩ => ⟨S16x512, .f32⟩
  | .hbm, ⟨6, _⟩ => ⟨S16x512, .i32⟩
  | .hbm, ⟨7, _⟩ => ⟨S_, .i32⟩
  | .hbm, ⟨8, _⟩ => ⟨S_, .i32⟩
  | .hbm, ⟨9, _⟩ => ⟨S16x512, .i32⟩
  | .hbm, ⟨10, _⟩ => ⟨S16x512, .i32⟩
  | .hbm, ⟨11, _⟩ => ⟨S16x1x512, .f32⟩
  | .hbm, ⟨12, _⟩ => ⟨S16x1x512, .i32⟩
  | .hbm, ⟨13, _⟩ => ⟨S16x1x512, .i32⟩
  | .hbm, ⟨14, _⟩ => ⟨S16x1x2048, .f32⟩
  | .hbm, ⟨15, _⟩ => ⟨S16x192x2048, .f32⟩
  | .local _ .vmem, ⟨0, _⟩ => ⟨S1x192x512, .f32⟩
  | .local _ .vmem, ⟨1, _⟩ => ⟨S1x192x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .i32⟩
  | .local _ .vmem, ⟨5, _⟩ => ⟨S1x1x512, .i32⟩
  | .local _ .vmem, ⟨6, _⟩ => ⟨S1x1x512, .i32⟩
  | .local _ .vmem, ⟨7, _⟩ => ⟨S1x1x512, .i32⟩
  | .local _ .vmem, ⟨8, _⟩ => ⟨S1x1x512, .f32⟩
  | .local _ .vmem, ⟨9, _⟩ => ⟨S1x1x512, .f32⟩
  | .local _ .vmem, ⟨10, _⟩ => ⟨S1x192x512, .f32⟩
  | .local _ .vmem, ⟨11, _⟩ => ⟨S1x192x512, .f32⟩
  | _, _ => ⟨S16x192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S16x512_S16x1x512_0_2 : S16x512.BroadcastsInDim S16x1x512 (![0, 2] : Fin 2 → Fin S16x1x512.rank)
  bcast_S16x2048_S16x1x2048_0_2 : S16x2048.BroadcastsInDim S16x1x2048 (![0, 2] : Fin 2 → Fin S16x1x2048.rank)
  iota_S512x512_d0_w32 : S512x512.Iotas .tc 32 [0]
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S512x512 : S1x512.Broadcasts S512x512
  natLt_1_32 : 1 < 32
  bitsLt_bf16_f32 : FTy.bits .bf16 < FTy.bits .f32
  inb_S1x192x512_S1x192x512_0_0_0 : ∀ a, (![0, 0, 0] : Fin 3 → Nat) a + S1x192x512.size a ≤ S1x192x512.size a
  h_S1x192x512 : 0 < S1x192x512.numel
  shapeCasts_S1x192x512_S192x512 : S1x192x512.ShapeCasts S192x512
  broadcasts_S1x512_S192x512 : S1x512.Broadcasts S192x512
  shapeCasts_S192x512_S1x192x512 : S192x512.ShapeCasts S1x192x512
  dot_S192x512_S512x512_S192x512_1_1_0_0_n_n_wf : DotDims.WF S192x512 S512x512 S192x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x192x512.size a ≤ S16x192x512.size a
  hwx0_0 : ∀ i : grid0.Coords, EltTy.bits .f32 = 32 ∨ (Rect.block (s := S16x192x512) S1x192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .f32 = 32 ∨ (Rect.block (s := S16x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x512.size a
  hwx0_2 : ∀ i : grid0.Coords, EltTy.bits .i32 = 32 ∨ (Rect.block (s := S16x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S16x1x512.size a
  hwx0_3 : ∀ i : grid0.Coords, EltTy.bits .i32 = 32 ∨ (Rect.block (s := S16x1x512) S1x1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S16x1x2048.size a
  hwx0_4 : ∀ i : grid0.Coords, EltTy.bits .f32 = 32 ∨ (Rect.block (s := S16x1x2048) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x192x512.size a ≤ S16x192x2048.size a
  hwx0_5 : ∀ i : grid0.Coords, EltTy.bits .f32 = 32 ∨ (Rect.block (s := S16x192x2048) S1x192x512.size (cc0_transform_5 i) (hinb0_5 i)).WholeWords (EltTy.packing .f32)

variable [Facts₀]

def dot_S192x512_S512x512_S192x512_1_1_0_0_n_n : DotDims S192x512 S512x512 S192x512 where
  lhsContracting := [1]
  rhsContracting := [1]
  lhsNonContracting := [0]
  rhsNonContracting := [0]
  lhsBatch := []
  rhsBatch := []
  wf := dot_S192x512_S512x512_S192x512_1_1_0_0_n_n_wf

abbrev win0_0 : Pipeline.Window sig grid0 :=
  Pipeline.Window.ofSpec (Memref.whole main_arg0) S1x192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x192x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x192x512 : Shape := ⟨3, ![16, 192, 512]⟩
abbrev S16x512 : Shape := ⟨2, ![16, 512]⟩
abbrev S16x2048 : Shape := ⟨2, ![16, 2048]⟩
abbrev S_ : Shape := ⟨0, ![]⟩
abbrev S2048 : Shape := ⟨1, ![2048]⟩
abbrev S1x2048x1 : Shape := ⟨3, ![1, 2048, 1]⟩
abbrev S16x1x512 : Shape := ⟨3, ![16, 1, 512]⟩
abbrev S16x2048x512 : Shape := ⟨3, ![16, 2048, 512]⟩
abbrev S16x2048x511 : Shape := ⟨3, ![16, 2048, 511]⟩
abbrev S16x192x2048 : Shape := ⟨3, ![16, 192, 2048]⟩
abbrev S16x1x2048 : Shape := ⟨3, ![16, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16x192x512, .f32⟩
  | .hbm, ⟨1, _⟩ => ⟨S16x512, .i32⟩
  | .hbm, ⟨2, _⟩ => ⟨S16x512, .f32⟩
  | .hbm, ⟨3, _⟩ => ⟨S16x2048, .f32⟩
  | .hbm, ⟨4, _⟩ => ⟨S16x512, .f32⟩
  | .hbm, ⟨5, _⟩ => ⟨S16x512, .f32⟩
  | .hbm, ⟨6, _⟩ => ⟨S16x512, .i32⟩
  | .hbm, ⟨7, _⟩ => ⟨S_, .i32⟩
  | .hbm, ⟨8, _⟩ => ⟨S_, .i32⟩
  | .hbm, ⟨9, _⟩ => ⟨S16x512, .i32⟩
  | .hbm, ⟨10, _⟩ => ⟨S2048, .i32⟩
  | .hbm, ⟨11, _⟩ => ⟨S1x2048x1, .i32⟩
  | .hbm, ⟨12, _⟩ => ⟨S16x1x512, .i32⟩
  | .hbm, ⟨13, _⟩ => ⟨S16x2048x512, .i32⟩
  | .hbm, ⟨14, _⟩ => ⟨S16x2048x512, .i32⟩
  | .hbm, ⟨15, _⟩ => ⟨S16x2048x512, .i1⟩
  | .hbm, ⟨16, _⟩ => ⟨S16x2048x512, .f32⟩
  | .hbm, ⟨17, _⟩ => ⟨S16x2048x511, .f32⟩
  | .hbm, ⟨18, _⟩ => ⟨S_, .i32⟩
  | .hbm, ⟨19, _⟩ => ⟨S_, .f32⟩
  | .hbm, ⟨20, _⟩ => ⟨S16x2048x512, .f32⟩
  | .hbm, ⟨21, _⟩ => ⟨S16x2048x512, .f32⟩
  | .hbm, ⟨22, _⟩ => ⟨S16x1x512, .f32⟩
  | .hbm, ⟨23, _⟩ => ⟨S16x192x512, .f32⟩
  | .hbm, ⟨24, _⟩ => ⟨S16x192x512, .f32⟩
  | .hbm, ⟨25, _⟩ => ⟨S16x192x2048, .f32⟩
  | .hbm, ⟨26, _⟩ => ⟨S16x1x2048, .f32⟩
  | .hbm, ⟨27, _⟩ => ⟨S16x192x2048, .f32⟩
  | .hbm, ⟨28, _⟩ => ⟨S16x192x2048, .f32⟩
  | _, _ => ⟨S16x192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S2048_S1x2048x1_1 : S2048.BroadcastsInDim S1x2048x1 (![1] : Fin 1 → Fin S1x2048x1.rank)
  bcast_S16x512_S16x1x512_0_2 : S16x512.BroadcastsInDim S16x1x512 (![0, 2] : Fin 2 → Fin S16x1x512.rank)
  bcast_S1x2048x1_S16x2048x512_0_1_2 : S1x2048x1.BroadcastsInDim S16x2048x512 (![0, 1, 2] : Fin 3 → Fin S16x2048x512.rank)
  bcast_S16x1x512_S16x2048x512_0_1_2 : S16x1x512.BroadcastsInDim S16x2048x512 (![0, 1, 2] : Fin 3 → Fin S16x2048x512.rank)
  slices_S16x2048x512_S16x2048x511_0_0_0 : S16x2048x512.Slices ![0, 0, 0] S16x2048x511
  pads_S16x2048x511_S16x2048x512_000_000_100 : S16x2048x511.Pads (![0, 0, 1] : Fin 3 → Nat) ![0, 0, 0] ![0, 0, 0] S16x2048x512
  bcast_S16x1x512_S16x192x512_0_1_2 : S16x1x512.BroadcastsInDim S16x192x512 (![0, 1, 2] : Fin 3 → Fin S16x192x512.rank)
  bcast_S16x2048_S16x1x2048_0_2 : S16x2048.BroadcastsInDim S16x1x2048 (![0, 2] : Fin 2 → Fin S16x1x2048.rank)
  bcast_S16x1x2048_S16x192x2048_0_1_2 : S16x1x2048.BroadcastsInDim S16x192x2048 (![0, 1, 2] : Fin 3 → Fin S16x192x2048.rank)
  dot_S16x192x512_S16x2048x512_S16x192x2048_2_2_1_1_0_0_wf : DotDims.WF S16x192x512 S16x2048x512 S16x192x2048 [2] [2] [1] [1] [0] [0]

variable [Facts₀]

def dot_S16x192x512_S16x2048x512_S16x192x2048_2_2_1_1_0_0 : DotDims S16x192x512 S16x2048x512 S16x192x2048 where
  lhsContracting := [2]
  rhsContracting := [2]
  lhsNonContracting := [1]
  rhsNonContracting := [1]
  lhsBatch := [0]
  rhsBatch := [0]
  wf := dot_S16x192x512_S16x2048x512_S16x192x2048_2_2_1_1_0_0_wf

class Facts : Prop extends Facts₀ where

variable [Facts]
-- ==== Proof.Spec.lean ====
/-
  What both programs compute, written once over the argument arrays.

  A batch entry has 512 text positions, each with an integer duration, and 2048 output frames.  The durations are first
  masked (converted to a float, multiplied by the text mask, converted back to a word); their running totals along the text
  axis cut the frame axis into consecutive segments, one per text position.  Frame `j` belongs to text position `i` when
  `total (i-1) ≤ j < total i` (with `total (-1)` read as nothing below), and that membership, as a number, is
  `[j < total i] - [j < total (i-1)]`, the second bracket absent at `i = 0`.  The output at channel `c` and frame `j` is the
  sum over the text positions of the masked input times that membership, times the frame mask.
-/
import Idealize.ShloMosaic.PureOps
import Idealize.ShloMosaic.PureOps.Ideal
import Idealize.ShloMosaic.Lib.ValueIdx

noncomputable section

namespace Cert.Spread

open Idealize.ShloMosaic Idealize.ShloMosaic.ValueIdx

/-- batch × text position: durations, text mask, running totals -/
abbrev SBT : Shape := ⟨2, ![16, 512]⟩
/-- batch × frame: the frame mask -/
abbrev SBJ : Shape := ⟨2, ![16, 2048]⟩
/-- batch × channel × text position: the input -/
abbrev SBCT : Shape := ⟨3, ![16, 192, 512]⟩
/-- batch × channel × frame: the output -/
abbrev SBCJ : Shape := ⟨3, ![16, 192, 2048]⟩

/-- The masked durations, as words: each duration as a float, times the text mask, back to a word. -/
def durations {F : FTy → Type} [FloatOps F] (w : IVec SBT 32) (xmask : FVec F SBT .f32) : IVec SBT 32 :=
  fptosi 32 (mulf (sitofp .f32 w) xmask)

/-- The running totals along the text axis: at each position the wrapping sum of the window of 512 positions ending
    there, positions before the row's start counting as zero. -/
def totals (d : IVec SBT 32) : IVec SBT 32 :=
  Host.reduceWindow IntOp.addi ![1, 512] ![1, 1] ![0, 511] ![0, 0] d (fun _ : (⟨0, ![]⟩ : Shape).Idx => 0#32)
    (by decide) (by decide)

/-- A one-bit word as an extended real: 0 or 1. -/
def bit (b : BitVec 1) : EReal := ((b.toNat : ℝ) : EReal)

/-- Whether frame `j` lies below the total `t` (a signed comparison of words), as 0 or 1. -/
def below (j : Fin 2048) (t : BitVec 32) : EReal := bit (IntOp.cmpi .slt (BitVec.ofNat 32 j.val) t)

/-- The total just before text position `i` contributes `[j < total (i-1)]`; there is none before position 0. -/
def belowPrev (cum : IVec SBT 32) (b : Fin 16) (j : Fin 2048) (i : Fin 512) : EReal :=
  if h : i.val = 0 then 0 else below j (cum (ix2 b (⟨i.val - 1, by omega⟩ : Fin 512)))

/-- Membership of frame `j` in text position `i`'s segment, as a number. -/
def member (cum : IVec SBT 32) (b : Fin 16) (j : Fin 2048) (i : Fin 512) : EReal :=
  below j (cum (ix2 b i)) - belowPrev cum b j i

/-- One output entry: the masked input spread along the frames by membership, then the frame mask. -/
def outAt (x : FVec Ideal SBCT .f32) (xmask : FVec Ideal SBT .f32) (cum : IVec SBT 32) (ymask : FVec Ideal SBJ .f32)
    (b : Fin 16) (c : Fin 192) (j : Fin 2048) : EReal :=
  (∑ i : Fin 512, (x (ix3 b c i) * xmask (ix2 b i)) * member cum b j i) * ymask (ix2 b j)

/-- The whole output array as a function of the four arguments. -/
def out (x : FVec Ideal SBCT .f32) (w : IVec SBT 32) (xmask : FVec Ideal SBT .f32) (ymask : FVec Ideal SBJ .f32) :
    FVec Ideal SBCJ .f32 :=
  fun y => outAt x xmask (totals (durations w xmask)) ymask (y 0) (y 1) (y 2)

theorem out_apply (x : FVec Ideal SBCT .f32) (w : IVec SBT 32) (xmask : FVec Ideal SBT .f32) (ymask : FVec Ideal SBJ .f32)
    (b : Fin 16) (c : Fin 192) (j : Fin 2048) :
    out x w xmask ymask (ix3 b c j) = outAt x xmask (totals (durations w xmask)) ymask b c j := rfl

end Cert.Spread

end
-- ==== Proof.KernelPayload.lean ====
/-
  The kernel body's stored value, read at one entry of its (1, 192, 512) block, at the exact instance.

  At grid point (batch entry, frame block `f`) the body compares the 512 frame numbers `f·512 + r` of its block with the two rows
  of words it loaded (the totals, and the totals less the durations), turns the two comparison arrays into 0/1 floats and
  subtracts them; it multiplies the loaded input block by the text-mask row, contracts that (192 × 512) with the (512 × 512)
  difference array over the text axis starting from a zero block, and multiplies by the frame-mask row.  A change of float
  format is the identity here, so entry (c, r) is a sum over the 512 text positions followed by one product.
-/
import proofs.«161288_j50697793962727_1_alg».proof.Proof.Gen.KernelIdeal.Skeleton
import proofs.«161288_j50697793962727_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

section Rows
variable {α : Type}

/-- A (1, 1, n) array viewed as a vector of length n reads, at k, the entry (0, 0, k). -/
theorem cast_11n_n_apply {n : ℕ} (x : (⟨3, ![1, 1, n]⟩ : Shape).Idx → α)
    (h : (⟨3, ![1, 1, n]⟩ : Shape).ShapeCasts ⟨1, ![n]⟩) (k : Fin n) :
    shapeCast ⟨1, ![n]⟩ x h (ix1 k) = x (ix3 (0 : Fin 1) (0 : Fin 1) k) :=
  shapeCast_apply x h _ _ (by
    rw [Shape.rowMajor_val_three, Shape.rowMajor_val_one]
    show (0 * 1 + 0) * n + k.val = k.val
    rw [Nat.zero_mul, Nat.zero_add])

/-- The row of a (1, 1, n) array, laid out as one row and repeated over m rows, reads (0, 0, k) at (p, k). -/
theorem row_apply {m n : ℕ} (x : (⟨3, ![1, 1, n]⟩ : Shape).Idx → α)
    (h1 : (⟨3, ![1, 1, n]⟩ : Shape).ShapeCasts ⟨1, ![n]⟩) (h2 : (⟨1, ![n]⟩ : Shape).ShapeCasts ⟨2, ![1, n]⟩)
    (h3 : (⟨2, ![1, n]⟩ : Shape).Broadcasts ⟨2, ![m, n]⟩) (p : Fin m) (k : Fin n) :
    broadcastTo ⟨2, ![m, n]⟩ (shapeCast ⟨2, ![1, n]⟩ (shapeCast ⟨1, ![n]⟩ x h1) h2) h3 (ix2 p k)
      = x (ix3 (0 : Fin 1) (0 : Fin 1) k) :=
  (broadcastTo_1b_ab_apply _ h3 p k).trans ((shapeCast_a_1a_apply _ h2 (0 : Fin 1) k).trans (cast_11n_n_apply x h1 k))

end Rows

/-- A one-bit word widened to 32 bits and read as a signed integer is the bit itself, 0 or 1. -/
theorem bit_of_setWidth (b : BitVec 1) : (((b.setWidth 32).toInt : ℝ) : EReal) = Cert.Spread.bit b := by
  rcases BitVec.eq_zero_or_eq_one b with h | h
  · subst h; simp [Cert.Spread.bit]
  · subst h; simp [Cert.Spread.bit]

/-- The frame word: the row number plus the block's offset, as words. -/
theorem frame_word (f r : ℕ) :
    IntOp.addi (BitVec.ofNat 32 r) (Scalar.muli (BitVec.ofNat 32 f) 512#32) = BitVec.ofNat 32 (f * 512 + r) := by
  show BitVec.ofNat 32 r + BitVec.ofNat 32 f * BitVec.ofNat 32 512 = _
  rw [← BitVec.ofNat_mul, ← BitVec.ofNat_add, Nat.add_comm]

/-- The left operand's index on its free axis is the output's row. -/
theorem lhs_axis0 (j : S192x512.Idx) (q : dot_S192x512_S512x512_S192x512_1_1_0_0_n_n.contr.Idx) :
    ((dot_S192x512_S512x512_S192x512_1_1_0_0_n_n.lhsIdx j q) 0).val = (j 0).val := by
  simp [DotDims.lhsIdx, dot_S192x512_S512x512_S192x512_1_1_0_0_n_n]
  rfl

/-- The left operand's index on its contracted axis is the contraction position. -/
theorem lhs_axis1 (j : S192x512.Idx) (q : dot_S192x512_S512x512_S192x512_1_1_0_0_n_n.contr.Idx) :
    ((dot_S192x512_S512x512_S192x512_1_1_0_0_n_n.lhsIdx j q) 1).val = (q ⟨0, by decide⟩).val :=
  dot_S192x512_S512x512_S192x512_1_1_0_0_n_n.lhsIdx_val_of_single rfl j q

/-- The right operand's index on its free axis is the output's column. -/
theorem rhs_axis0 (j : S192x512.Idx) (q : dot_S192x512_S512x512_S192x512_1_1_0_0_n_n.contr.Idx) :
    ((dot_S192x512_S512x512_S192x512_1_1_0_0_n_n.rhsIdx j q) 0).val = (j 1).val := by
  simp [DotDims.rhsIdx, dot_S192x512_S512x512_S192x512_1_1_0_0_n_n]
  rfl

/-- The right operand's index on its contracted axis is the contraction position. -/
theorem rhs_axis1 (j : S192x512.Idx) (q : dot_S192x512_S512x512_S192x512_1_1_0_0_n_n.contr.Idx) :
    ((dot_S192x512_S512x512_S192x512_1_1_0_0_n_n.rhsIdx j q) 1).val = (q ⟨0, by decide⟩).val :=
  dot_S192x512_S512x512_S192x512_1_1_0_0_n_n.rhsIdx_val_of_single rfl j q

/-- The contraction of a (192 × 512) array with a (512 × 512) array over the second axis of each, starting from the
    zero block: entry (c, r) is the sum over k of A (c, k) · B (r, k). -/
theorem matmul_entry (A : FVec Ideal S192x512 .bf16) (B : FVec Ideal S512x512 .bf16) (c : Fin 192) (r : Fin 512) :
    matmul (F := Ideal) dot_S192x512_S512x512_S192x512_1_1_0_0_n_n none A B (constant S192x512 .f32 0x00000000#32) (ix2 c r)
      = ∑ k : Fin 512, A (ix2 c k) * B (ix2 r k) := by
  refine (Ideal.matmul_constant_zero_apply dot_S192x512_S512x512_S192x512_1_1_0_0_n_n none A B (ix2 c r)).trans ?_
  rw [← Equiv.sum_comp (contrEquiv1 dot_S192x512_S512x512_S192x512_1_1_0_0_n_n 512 rfl rfl).symm]
  refine Finset.sum_congr rfl fun k _ => ?_
  have ck := contrEquiv1_symm_val dot_S192x512_S512x512_S192x512_1_1_0_0_n_n 512 rfl rfl k
  have hl : dot_S192x512_S512x512_S192x512_1_1_0_0_n_n.lhsIdx (ix2 c r) ((contrEquiv1 dot_S192x512_S512x512_S192x512_1_1_0_0_n_n 512 rfl rfl).symm k) = ix2 c k := by
    funext ax; apply Fin.ext
    match ax with
    | ⟨0, _⟩ => exact lhs_axis0 _ _
    | ⟨1, _⟩ => exact (lhs_axis1 _ _).trans ck
  have hr : dot_S192x512_S512x512_S192x512_1_1_0_0_n_n.rhsIdx (ix2 c r) ((contrEquiv1 dot_S192x512_S512x512_S192x512_1_1_0_0_n_n 512 rfl rfl).symm k) = ix2 r k := by
    funext ax; apply Fin.ext
    match ax with
    | ⟨0, _⟩ => exact rhs_axis0 _ _
    | ⟨1, _⟩ => exact (rhs_axis1 _ _).trans ck
  rw [hl, hr]

/-- The frame numbers of the block: row r of the (512 × 512) array holds the word of f·512 + r. -/
theorem frame_apply (f : ℕ) (h : S512x512.Iotas .tc 32 [0]) (r k : Fin 512) :
    addi (iota .tc S512x512 32 [0] h) (broadcast S512x512 (Scalar.muli (BitVec.ofNat 32 f) 512#32)) (ix2 r k)
      = BitVec.ofNat 32 (f * 512 + r.val) := by
  show IntOp.addi (iota .tc S512x512 32 [0] h (ix2 r k)) (Scalar.muli (BitVec.ofNat 32 f) 512#32) = _
  rw [iota_single_apply]
  exact frame_word f r.val

/-- One comparison array as floats: entry (r, k) is the bit of "frame word of row r is below the k-th loaded word". -/
theorem below_apply (J : IVec S512x512 32) (w : IVec S1x1x512 32) (h1 : S1x1x512.ShapeCasts S512)
    (h2 : S512.ShapeCasts S1x512) (h3 : S1x512.Broadcasts S512x512) (h4 : 1 < 32) (r k : Fin 512) (jw : BitVec 32)
    (hJ : J (ix2 r k) = jw) :
    (sitofp (F := Ideal) .f32 (extui 32 (cmpi .slt J (broadcastTo S512x512 (shapeCast S1x512 (shapeCast S512 w h1) h2) h3)) h4)
        : FVec Ideal S512x512 .f32) (ix2 r k)
      = Cert.Spread.bit (IntOp.cmpi .slt jw (w (ix3 (0 : Fin 1) (0 : Fin 1) k))) := by
  show ((((IntOp.cmpi .slt (J (ix2 r k))
      (broadcastTo S512x512 (shapeCast S1x512 (shapeCast S512 w h1) h2) h3 (ix2 r k))).setWidth 32).toInt : ℝ) : EReal) = _
  rw [row_apply w h1 h2 h3 r k, hJ]
  exact bit_of_setWidth _

/-- Entry (c, r) of the stored block: the sum over the text positions `k` of (input × text mask) × (`[j < total k]` −
    `[j < total k − duration k]`) at the frame number `j = f·512 + r`, times the frame mask at `r`. -/
theorem pay_apply (i : grid0.Coords) (v4 v7 : Vec Ideal S1x1x512 .i32) (v20 : Vec Ideal S1x192x512 .f32)
    (v22 v29 : Vec Ideal S1x1x512 .f32) (c : Fin 192) (r : Fin 512) :
    k0_pay1 (F := Ideal) i v4 v7 v20 v22 v29 (ix3 (0 : Fin 1) c r)
      = (∑ k : Fin 512, (v20 (ix3 (0 : Fin 1) c k) * v22 (ix3 (0 : Fin 1) (0 : Fin 1) k))
            * (Cert.Spread.bit (IntOp.cmpi .slt (BitVec.ofNat 32 ((i 1).val * 512 + r.val)) (v4 (ix3 (0 : Fin 1) (0 : Fin 1) k)))
                - Cert.Spread.bit (IntOp.cmpi .slt (BitVec.ofNat 32 ((i 1).val * 512 + r.val)) (v7 (ix3 (0 : Fin 1) (0 : Fin 1) k)))))
          * v29 (ix3 (0 : Fin 1) (0 : Fin 1) r) := by
  unfold k0_pay1
  refine (shapeCast_ab_1ab_apply _ _ (0 : Fin 1) c r).trans ?_
  refine (mulf_apply _ _ _).trans ?_
  refine congrArg₂ (· * ·) ?_ (row_apply v29 _ _ _ c r)
  refine (matmul_entry _ _ c r).trans ?_
  refine Finset.sum_congr rfl fun k _ => ?_
  refine congrArg₂ (· * ·) ?_ ?_
  · refine (truncf_apply (φ := .f32) (ψ := .bf16) _ bitsLt_bf16_f32 _).trans ?_
    refine (mulf_apply _ _ _).trans ?_
    exact congrArg₂ (· * ·) (shapeCast_1ab_ab_apply v20 _ c k) (row_apply v22 _ _ _ c k)
  · refine (truncf_apply (φ := .f32) (ψ := .bf16) _ bitsLt_bf16_f32 _).trans ?_
    refine (subf_apply _ _ _).trans ?_
    exact congrArg₂ (· - ·)
      (below_apply _ v4 _ _ _ _ r k _ (frame_apply (i 1).val _ r k))
      (below_apply _ v7 _ _ _ _ r k _ (frame_apply (i 1).val _ r k))

end Cert.KernelIdeal.Hand

end
-- ==== Proof.CumShift.lean ====
/-
  The running totals of a row of words, one step back.

  `totals d` at text position `i` is the wrapping sum of `d` over the positions `0 … i` of the row (a window of 512
  positions ending at `i`, the positions before the row's start counting as zero).  So taking the row's own entry at `i`
  away again leaves the total at `i - 1`, and leaves zero at `i = 0`: words form a commutative ring, so this holds whether
  or not any sum wraps.  A frame number is never below the zero word.
-/
import proofs.«161288_j50697793962727_1_alg».proof.Proof.Spec
import Idealize.ShloMosaic.Lib.StableHlo.Predicate
import Mathlib.Algebra.BigOperators.Intervals
import Mathlib.Algebra.BigOperators.Fin
import Mathlib.Data.BitVec

noncomputable section

namespace Cert.Spread

open Idealize.ShloMosaic Idealize.ShloMosaic.ValueIdx

/-- A left fold of wrapping addition over a list is the starting word plus the sum of the list's terms. -/
theorem foldl_addi_eq_sum {ι : Type} (g : ι → BitVec 32) (l : List ι) (a : BitVec 32) :
    l.foldl (fun r n => IntOp.addi r (g n)) a = a + (l.map g).sum := by
  induction l generalizing a with
  | nil => simp
  | cons x xs ih =>
    rw [List.foldl_cons, ih]
    simp [IntOp.addi, add_assoc]

/-- The same fold over all of `Fin N`, from zero: the sum over `Fin N`. -/
theorem foldl_addi_finRange {N : ℕ} (g : Fin N → BitVec 32) :
    (List.finRange N).foldl (fun r n => IntOp.addi r (g n)) 0#32 = ∑ n : Fin N, g n := by
  rw [foldl_addi_eq_sum, Fin.sum_univ_def]
  simp

/-- A window of `M + 1` positions ending at `i`, the positions before the start counting as zero, sums the
    first `i + 1` terms: the window's position `k` sits at `i + k - M`, which is inside exactly from
    `k = M - i` on. -/
theorem window_sum (X : ℕ → BitVec 32) (N M i : ℕ) (hN : N = M + 1) (hi : i ≤ M) :
    ∑ k ∈ Finset.range N, (if M ≤ i + k then X (i + k - M) else 0)
      = ∑ l ∈ Finset.range (i + 1), X l := by
  subst hN
  rw [Finset.range_eq_Ico,
    ← Finset.sum_Ico_consecutive _ (Nat.zero_le (M - i)) (by omega : M - i ≤ M + 1)]
  have hlow : ∑ k ∈ Finset.Ico 0 (M - i), (if M ≤ i + k then X (i + k - M) else 0) = 0 := by
    apply Finset.sum_eq_zero
    intro k hk
    rw [Finset.mem_Ico] at hk
    rw [if_neg (by omega)]
  rw [hlow, zero_add, Finset.sum_Ico_eq_sum_range]
  have hlen : M + 1 - (M - i) = i + 1 := by omega
  rw [hlen]
  apply Finset.sum_congr rfl
  intro l _
  rw [if_pos (by omega)]
  congr 1
  omega

/-- Row `b` of `d` as a sequence of words, zero beyond the row's end. -/
def row (d : IVec SBT 32) (b : Fin 16) (l : ℕ) : BitVec 32 :=
  if hl : l < 512 then d (ix2 b ⟨l, hl⟩) else 0#32

/-- Inside the row, the sequence reads the row's own entry. -/
theorem row_val (d : IVec SBT 32) (b : Fin 16) (i : Fin 512) : row d b i.val = d (ix2 b i) := by
  unfold row
  rw [dif_pos i.isLt]

/-- The window shape has as many positions as the row is long. -/
theorem numel_window : (⟨2, ![1, 512]⟩ : Shape).numel = 512 := by
  simp [Shape.numel, Fin.prod_univ_two]

/-- In a window one row high, the position numbered `n` has row coordinate zero and column coordinate `n`. -/
theorem window_coords (n : Fin (⟨2, ![1, 512]⟩ : Shape).numel) :
    ((⟨2, ![1, 512]⟩ : Shape).rowMajor.symm n 0).val = 0
      ∧ ((⟨2, ![1, 512]⟩ : Shape).rowMajor.symm n 1).val = n.val := by
  have h2 := Shape.rowMajor_val_two ((⟨2, ![1, 512]⟩ : Shape).rowMajor.symm n)
  rw [Equiv.apply_symm_apply] at h2
  have h0 : ((⟨2, ![1, 512]⟩ : Shape).rowMajor.symm n 0).val < 1 :=
    ((⟨2, ![1, 512]⟩ : Shape).rowMajor.symm n 0).isLt
  simp only [Matrix.cons_val_one, Matrix.cons_val_zero, Matrix.head_cons] at h2
  omega

/-- The running total at `i` is the sum of the row's first `i + 1` words. -/
theorem totals_eq_sum (d : IVec SBT 32) (b : Fin 16) (i : Fin 512) :
    totals d (ix2 b i) = ∑ l ∈ Finset.range (i.val + 1), row d b l := by
  unfold totals Host.reduceWindow
  simp only []
  rw [foldl_addi_finRange]
  have hR : ∑ l ∈ Finset.range (i.val + 1), row d b l
      = ∑ n : Fin (⟨2, ![1, 512]⟩ : Shape).numel,
          (if 511 ≤ i.val + n.val then row d b (i.val + n.val - 511) else 0) := by
    rw [Fin.sum_univ_eq_sum_range (fun k => if 511 ≤ i.val + k then row d b (i.val + k - 511) else 0),
      numel_window]
    exact (window_sum (row d b) 512 511 i.val rfl (by omega)).symm
  rw [hR]
  apply Finset.sum_congr rfl
  intro n _
  obtain ⟨c0, c1⟩ := window_coords n
  have hn : n.val < 512 := lt_of_lt_of_eq n.isLt numel_window
  have hi : i.val < 512 := i.isLt
  have e1 : (ix2 b i 1).val = i.val := rfl
  split_ifs with h1 h2 h2
  · unfold row
    rw [dif_pos (by omega : i.val + n.val - 511 < 512)]
    congr 1
    funext a
    apply Fin.ext
    fin_cases a
    · simp [c0]
    · simp [c1]
  · exfalso
    have h11 := (h1 1).1
    simp [c1, e1] at h11
    omega
  · exfalso
    apply h1
    intro a
    fin_cases a
    · simp [c0]
    · simp [c1, e1]
      omega
  · rfl

/-- The total at `i` less the entry at `i` is the total at `i - 1`; at `i = 0` it is zero. -/
theorem totals_sub (d : IVec SBT 32) (b : Fin 16) (i : Fin 512) :
    IntOp.subi (totals d (ix2 b i)) (d (ix2 b i))
      = if h : i.val = 0 then 0#32 else totals d (ix2 b (⟨i.val - 1, by omega⟩ : Fin 512)) := by
  have hsub : IntOp.subi (totals d (ix2 b i)) (d (ix2 b i))
      = ∑ l ∈ Finset.range i.val, row d b l := by
    show totals d (ix2 b i) - d (ix2 b i) = _
    rw [totals_eq_sum, Finset.sum_range_succ, row_val, add_sub_cancel_right]
  rw [hsub]
  split_ifs with h
  · rw [h, Finset.sum_range_zero]
    rfl
  · rw [totals_eq_sum]
    have e : i.val - 1 + 1 = i.val := by omega
    show _ = ∑ l ∈ Finset.range (i.val - 1 + 1), row d b l
    rw [e]

/-- No frame number is below the zero word. -/
theorem below_zero (j : Fin 2048) : below j 0#32 = 0 := by
  have hj : (BitVec.ofNat 32 j.val).toNat < 2 ^ 31 := by
    have := j.isLt
    simp only [BitVec.toNat_ofNat]
    omega
  have h0 : (0#32).toNat < 2 ^ 31 := by decide
  have hne : ¬ IntOp.cmpi .slt (BitVec.ofNat 32 j.val) 0#32 = 1#1 := by
    rw [StableHlo.Predicate.slt_iff_toNat hj h0]
    simp
  unfold below
  rw [eq_zero_of_ne_one hne]
  simp [bit]

end Cert.Spread

end
-- ==== Proof.KernelValue.lean ====
/-
  What the kernel leaves in its result array, at the exact instance: the specification's array.

  The grid has 16 × 4 points; point `t` works on batch entry `t / 4` and on the block of 512 frames number `t % 4`.  Before
  the grid runs, the host part of the program has computed the masked durations, their running totals, and the totals
  less the durations, and has given each of the four row arrays a unit middle axis.  At a point the body loads the whole
  (192 × 512) input block of its batch entry, the four rows of its batch entry (the frame mask's at its own block of 512
  frames), and stores a (192 × 512) block.  Entry (c, r) of that block is the specification's entry
  (t / 4, c, (t % 4)·512 + r): the row of totals less durations is the row of totals moved one text position to the right
  behind a zero, so the difference of the two comparison arrays is the membership array.  The 64 blocks tile the result
  array, so the array ends at the specification's.
-/
import proofs.«161288_j50697793962727_1_alg».proof.Proof.KernelIdealValue
import proofs.«161288_j50697793962727_1_alg».proof.Proof.KernelPayload
import proofs.«161288_j50697793962727_1_alg».proof.Proof.CumShift
import Idealize.ShloMosaic.Lib.StableHlo.Run

noncomputable section

namespace Cert.KernelIdeal.Hand

open Cert.KernelIdeal Cert.KernelIdeal.Gen Cert.KernelIdeal.GenP Idealize.ShloMosaic Idealize.ShloMosaic.TcCoe Idealize.SL.Sem
open Idealize.ShloMosaic.ValueIdx Idealize.ShloMosaic.StableHlo
open Idealize.ShloMosaic.Pipeline (Dat)
open Cert.Spread (SBT SBJ SBCT SBCJ durations totals bit below belowPrev member outAt out)

/-! ## One stored entry against the specification, over any blocks -/

/-- The point's five loaded blocks being the blocks of the input, the text mask, the totals, the totals less the
    durations and the frame mask at batch entry `b` and frame block `f`, entry (c, r) of the stored block is the
    specification's entry (b, c, f·512 + r). -/
theorem point_eq (i : grid0.Coords) (x0 : Vec Ideal S1x192x512 .f32) (x1 : Vec Ideal S1x1x512 .f32)
    (x2 x3 : Vec Ideal S1x1x512 .i32) (x4 : Vec Ideal S1x1x512 .f32)
    (X : FVec Ideal SBCT .f32) (W : IVec SBT 32) (Xm : FVec Ideal SBT .f32) (Ym : FVec Ideal SBJ .f32)
    (b : Fin 16) (f : Fin 4) (hf : (i 1).val = f.val)
    (h0 : ∀ (c : Fin 192) (k : Fin 512), x0 (ix3 (0 : Fin 1) c k) = X (ix3 b c k))
    (h1 : ∀ k : Fin 512, x1 (ix3 (0 : Fin 1) (0 : Fin 1) k) = Xm (ix2 b k))
    (h2 : ∀ k : Fin 512, x2 (ix3 (0 : Fin 1) (0 : Fin 1) k) = totals (durations W Xm) (ix2 b k))
    (h3 : ∀ k : Fin 512, x3 (ix3 (0 : Fin 1) (0 : Fin 1) k)
        = IntOp.subi (totals (durations W Xm) (ix2 b k)) (durations W Xm (ix2 b k)))
    (h4 : ∀ r : Fin 512, x4 (ix3 (0 : Fin 1) (0 : Fin 1) r) = Ym (ix2 b (⟨f.val * 512 + r.val, by omega⟩ : Fin 2048)))
    (c : Fin 192) (r : Fin 512) :
    k0_pay1 (F := Ideal) i x2 x3 x0 x1 x4 (ix3 (0 : Fin 1) c r)
      = outAt X Xm (totals (durations W Xm)) Ym b c (⟨f.val * 512 + r.val, by omega⟩ : Fin 2048) := by
  rw [pay_apply, hf, h4 r]
  unfold outAt
  congr 1
  refine Finset.sum_congr rfl fun k _ => ?_
  rw [h0 c k, h1 k, h2 k, h3 k, Cert.Spread.totals_sub]
  congr 1
  unfold member belowPrev
  by_cases hk : k.val = 0
  · rw [dif_pos hk, dif_pos hk]
    show below (⟨f.val * 512 + r.val, by omega⟩ : Fin 2048) _ - below (⟨f.val * 512 + r.val, by omega⟩ : Fin 2048) 0#32 = _
    rw [Cert.Spread.below_zero]
  · rw [dif_neg hk, dif_neg hk]
    rfl

/-! ## The arrays the grid finds -/

variable (m : (ℓ : Loc nD τ sig) → Buf (Elt Ideal) ℓ) (ρ : Dev nD → PrngReg)

/-- The four argument arrays on core `c`. -/
abbrev aX (c : Dev nD) : FVec Ideal S16x192x512 .f32 := m ((c : Thread nD τ).loc main_arg0)
abbrev aW (c : Dev nD) : IVec S16x512 32 := m ((c : Thread nD τ).loc main_arg1)
abbrev aXm (c : Dev nD) : FVec Ideal S16x512 .f32 := m ((c : Thread nD τ).loc main_arg2)
abbrev aYm (c : Dev nD) : FVec Ideal S16x2048 .f32 := m ((c : Thread nD τ).loc main_arg3)

/-- The masked durations, the zero word and the running totals, as the host part computes them. -/
def wmK (c : Dev nD) : IVec S16x512 32 := fptosi 32 (mulf (sitofp .f32 (aW m c)) (aXm m c))
def zeroK : IVec S_ 32 := broadcastInDim S_ ![] bcast_S_S_ (constantI S_ 32 0#32)
def cumK (c : Dev nD) : IVec S16x512 32 :=
  Host.reduceWindow IntOp.addi ![1, 512] ![1, 1] ![0, 511] ![0, 0] (wmK m c) zeroK
    reduceWindows_S16x512_S16x512_w1s1p0_0_w512s1p511_0 h_S_

theorem wmK_eq (c : Dev nD) : wmK m c = durations (aW m c) (aXm m c) := rfl
theorem cumK_eq (c : Dev nD) : cumK m c = totals (durations (aW m c) (aXm m c)) := rfl

/-- The text mask with a unit middle axis. -/
theorem V5 (c : Dev nD) : (V m c main_v5 : S16x1x512.Idx → EReal)
    = broadcastInDim S16x1x512 ![0, 2] bcast_S16x512_S16x1x512_0_2 (aXm m c) := by
  dsimp only [V]
  simp only [hostOps0, hostOps0_1, hostOps0_2, List.flatten_cons, List.flatten_nil, List.append_nil, List.cons_append,
    List.nil_append]
  after_results

/-- The totals with a unit middle axis. -/
theorem V6 (c : Dev nD) : (V m c main_v6 : S16x1x512.Idx → BitVec 32)
    = broadcastInDim S16x1x512 ![0, 2] bcast_S16x512_S16x1x512_0_2 (cumK m c) := by
  unfold cumK wmK zeroK
  dsimp only [V]
  simp only [hostOps0, hostOps0_1, hostOps0_2, List.flatten_cons, List.flatten_nil, List.append_nil, List.cons_append,
    List.nil_append]
  after_results
  simp only [TRef.ofBuf, TRef.toBuf, cast_eq]

/-- The totals less the durations, with a unit middle axis. -/
theorem V7 (c : Dev nD) : (V m c main_v7 : S16x1x512.Idx → BitVec 32)
    = broadcastInDim S16x1x512 ![0, 2] bcast_S16x512_S16x1x512_0_2 (subi (cumK m c) (wmK m c)) := by
  unfold cumK wmK zeroK
  dsimp only [V]
  simp only [hostOps0, hostOps0_1, hostOps0_2, List.flatten_cons, List.flatten_nil, List.append_nil, List.cons_append,
    List.nil_append]
  after_results
  simp only [TRef.ofBuf, TRef.toBuf, cast_eq]

/-- The frame mask with a unit middle axis. -/
theorem V8 (c : Dev nD) : (V m c main_v8 : S16x1x2048.Idx → EReal)
    = broadcastInDim S16x1x2048 ![0, 2] bcast_S16x2048_S16x1x2048_0_2 (aYm m c) := by
  dsimp only [V]
  simp only [hostOps0, hostOps0_1, hostOps0_2, List.flatten_cons, List.flatten_nil, List.append_nil, List.cons_append,
    List.nil_append]
  after_results

/-! ## The grid points and the windows' blocks -/

theorem N64 : cfg0.N = 64 := N_0

/-- The batch entry and the frame block of grid point `t`. -/
def bOf (t : Fin cfg0.N) : Fin 16 := ⟨t.val / 4, by have := t.isLt; have h := N64; omega⟩
def fOf (t : Fin cfg0.N) : Fin 4 := ⟨t.val % 4, Nat.mod_lt _ (by decide)⟩

/-- The printed index maps and grid coordinates, decided over the 64 points: every window is at batch entry `t / 4`; the
    frame mask's and the result's are at frame block `t % 4`, the others at block 0. -/
theorem idx_facts : ∀ t : Fin cfg0.N,
    (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = t.val % 4)
    ∧ (win0_5.index t (0 : Fin 3) = t.val / 4 ∧ win0_5.index t (1 : Fin 3) = 0 ∧ win0_5.index t (2 : Fin 3) = t.val % 4)
    ∧ (grid0.coords t (1 : Fin 2)).val = t.val % 4 :=
  (by decide +kernel : ∀ t : Fin grid0.N, _)

/-- The input window's block at point `t` is the input at batch entry `t / 4`. -/
theorem read0 (c : Dev nD) (t : Fin cfg0.N) (c' : Fin 192) (k : Fin 512) :
    iblk m c 0 t (ix3 (0 : Fin 1) c' k) = aX m c (ix3 (bOf t) c' k) := by
  obtain ⟨⟨e0, e1, e2⟩, -⟩ := idx_facts t
  show V m c main_arg0 (((cfg0.win 0).blk t).view.emb (ix3 (0 : Fin 1) c' k)) = _
  refine (congrFun (V_main_arg0 m c) _).trans (congrArg (aX m c) (funext fun a => Fin.ext ?_))
  match a with
  | ⟨0, _⟩ => show win0_0.index t (0 : Fin 3) * 1 + 1 * 0 = t.val / 4; omega
  | ⟨1, _⟩ => show win0_0.index t (1 : Fin 3) * 192 + 1 * c'.val = c'.val; omega
  | ⟨2, _⟩ => show win0_0.index t (2 : Fin 3) * 512 + 1 * k.val = k.val; omega

/-- A row array with a unit middle axis, read at (b, 0, k), is the row array at (b, k). -/
theorem bcastRow_apply {α : Type} {n : Nat} (h : (⟨2, ![16, n]⟩ : Shape).BroadcastsInDim ⟨3, ![16, 1, n]⟩ ![0, 2])
    (x : (⟨2, ![16, n]⟩ : Shape).Idx → α) (j : (⟨3, ![16, 1, n]⟩ : Shape).Idx) (b : Fin 16) (k : Fin n)
    (hn : n ≠ 1) (hb : (j 0).val = b.val) (hk : (j 2).val = k.val) :
    broadcastInDim (⟨3, ![16, 1, n]⟩ : Shape) ![0, 2] h x j = x (ix2 b k) := by
  refine broadcastInDim_apply _ _ _ _ (ix2 b k) fun a => ?_
  match a with
  | ⟨0, _⟩ =>
    show b.val = if (16 : ℕ) = 1 then 0 else (j 0).val
    rw [if_neg (by decide), hb]
  | ⟨1, _⟩ =>
    show k.val = if n = 1 then 0 else (j 2).val
    rw [if_neg hn, hk]

theorem read1 (c : Dev nD) (t : Fin cfg0.N) (k : Fin 512) :
    iblk m c 1 t (ix3 (0 : Fin 1) (0 : Fin 1) k) = aXm m c (ix2 (bOf t) k) := by
  obtain ⟨-, ⟨e0, e1, e2⟩, -⟩ := idx_facts t
  show V m c main_v5 (((cfg0.win 1).blk t).view.emb (ix3 (0 : Fin 1) (0 : Fin 1) k)) = _
  refine (congrFun (V5 m c) _).trans (bcastRow_apply _ _ _ (bOf t) k (by decide) ?_ ?_)
  · show win0_1.index t (0 : Fin 3) * 1 + 1 * 0 = t.val / 4; omega
  · show win0_1.index t (2 : Fin 3) * 512 + 1 * k.val = k.val; omega

theorem read2 (c : Dev nD) (t : Fin cfg0.N) (k : Fin 512) :
    iblk m c 2 t (ix3 (0 : Fin 1) (0 : Fin 1) k) = totals (durations (aW m c) (aXm m c)) (ix2 (bOf t) k) := by
  obtain ⟨-, -, ⟨e0, e1, e2⟩, -⟩ := idx_facts t
  show V m c main_v6 (((cfg0.win 2).blk t).view.emb (ix3 (0 : Fin 1) (0 : Fin 1) k)) = _
  refine (congrFun (V6 m c) _).trans ((bcastRow_apply _ _ _ (bOf t) k (by decide) ?_ ?_).trans (congrFun (cumK_eq m c) _))
  · show win0_2.index t (0 : Fin 3) * 1 + 1 * 0 = t.val / 4; omega
  · show win0_2.index t (2 : Fin 3) * 512 + 1 * k.val = k.val; omega

theorem read3 (c : Dev nD) (t : Fin cfg0.N) (k : Fin 512) :
    iblk m c 3 t (ix3 (0 : Fin 1) (0 : Fin 1) k)
      = IntOp.subi (totals (durations (aW m c) (aXm m c)) (ix2 (bOf t) k)) (durations (aW m c) (aXm m c) (ix2 (bOf t) k)) := by
  obtain ⟨-, -, -, ⟨e0, e1, e2⟩, -⟩ := idx_facts t
  show V m c main_v7 (((cfg0.win 3).blk t).view.emb (ix3 (0 : Fin 1) (0 : Fin 1) k)) = _
  refine (congrFun (V7 m c) _).trans ((bcastRow_apply _ _ _ (bOf t) k (by decide) ?_ ?_).trans rfl)
  · show win0_3.index t (0 : Fin 3) * 1 + 1 * 0 = t.val / 4; omega
  · show win0_3.index t (2 : Fin 3) * 512 + 1 * k.val = k.val; omega

theorem read4 (c : Dev nD) (t : Fin cfg0.N) (r : Fin 512) :
    iblk m c 4 t (ix3 (0 : Fin 1) (0 : Fin 1) r)
      = aYm m c (ix2 (bOf t) (⟨(fOf t).val * 512 + r.val, by have := (fOf t).isLt; omega⟩ : Fin 2048)) := by
  obtain ⟨-, -, -, -, ⟨e0, e1, e2⟩, -⟩ := idx_facts t
  show V m c main_v8 (((cfg0.win 4).blk t).view.emb (ix3 (0 : Fin 1) (0 : Fin 1) r)) = _
  refine (congrFun (V8 m c) _).trans (bcastRow_apply _ _ _ (bOf t) _ (by decide) ?_ ?_)
  · show win0_4.index t (0 : Fin 3) * 1 + 1 * 0 = t.val / 4; omega
  · show win0_4.index t (2 : Fin 3) * 512 + 1 * r.val = t.val % 4 * 512 + r.val; omega

/-! ## What a point writes back, the cover, the array -/

theorem hz : (![0, 0, 0] : Fin 3 → Nat) = fun _ => 0 := funext fun a => by fin_cases a <;> rfl

/-- What point `t` writes back is block `t` of the specification's array. -/
theorem flushed_eq (c : Dev nD) (t : Fin cfg0.N) :
    (dats m 0 c).flushed 5 t
      = ((cfg0.win 5).blk t).view.read (Elt Ideal) (out (aX m c) (aW m c) (aXm m c) (aYm m c)) := by
  rw [Cert.KernelIdeal.ValueP.flushed5]
  unfold out0_5
  rw [View.canon_unit_zero hz]
  simp only [View.ld_unit_zero (S := S1x192x512) hz, View.ld_unit_zero (S := S1x1x512) hz]
  funext y
  obtain ⟨c', r, rfl⟩ : ∃ (c' : Fin 192) (r : Fin 512), y = ix3 (0 : Fin 1) c' r :=
    ⟨y 1, y 2, (eq_ix3 y).trans (congrArg (fun z : Fin 1 => ix3 z (y 1) (y 2)) (Fin.ext (Nat.lt_one_iff.mp (y 0).isLt)))⟩
  obtain ⟨-, -, -, -, -, ⟨e0, e1, e2⟩, g1⟩ := idx_facts t
  show k0_pay1 (grid0.coords t) (iblk m c 2 t) (iblk m c 3 t) (iblk m c 0 t) (iblk m c 1 t) (iblk m c 4 t) (ix3 (0 : Fin 1) c' r)
    = out (aX m c) (aW m c) (aXm m c) (aYm m c) (((cfg0.win 5).blk t).view.emb (ix3 (0 : Fin 1) c' r))
  refine (point_eq (grid0.coords t) (iblk m c 0 t) (iblk m c 1 t) (iblk m c 2 t) (iblk m c 3 t) (iblk m c 4 t)
    (aX m c) (aW m c) (aXm m c) (aYm m c) (bOf t) (fOf t) g1 (read0 m c t) (read1 m c t) (read2 m c t) (read3 m c t)
    (read4 m c t) c' r).trans ?_
  have he : ((cfg0.win 5).blk t).view.emb (ix3 (0 : Fin 1) c' r)
      = ix3 (bOf t) c' (⟨(fOf t).val * 512 + r.val, by have := (fOf t).isLt; omega⟩ : Fin 2048) := by
    funext a; apply Fin.ext
    match a with
    | ⟨0, _⟩ => show win0_5.index t (0 : Fin 3) * 1 + 1 * 0 = t.val / 4; omega
    | ⟨1, _⟩ => show win0_5.index t (1 : Fin 3) * 192 + 1 * c'.val = c'.val; omega
    | ⟨2, _⟩ => show win0_5.index t (2 : Fin 3) * 512 + 1 * r.val = t.val % 4 * 512 + r.val; omega
  rw [he]
  rfl

/-- An index of the result array is in point `t`'s block iff each coordinate is in the block's range on its axis. -/
theorem mem_blk (t : Fin cfg0.N) (i : S16x192x2048.Idx) :
    i ∈ ((cfg0.win 5).blk t).view.set ↔ ∀ a : Fin 3, win0_5.index t a * S1x192x512.size a ≤ (i a).val
      ∧ (i a).val < win0_5.index t a * S1x192x512.size a + S1x192x512.size a := by
  show i ∈ ((View.whole main_v9).slice (win0_5.rect t)).set ↔ _
  rw [View.set_slice_whole, Rect.mem_set_unit]
  exact Iff.rfl

/-- Every index of the result array is in the block of the point of its batch entry and its frame block. -/
theorem cover (i : S16x192x2048.Idx) :
    ∃ t : Fin cfg0.N, (cfg0.win 5).flush t = true ∧ i ∈ ((cfg0.win 5).blk t).view.set := by
  have hi0 : (i 0).val < 16 := (i 0).isLt
  have hi1 : (i 1).val < 192 := (i 1).isLt
  have hi2 : (i 2).val < 2048 := (i 2).isLt
  have hN := N64
  refine ⟨⟨(i 0).val * 4 + (i 2).val / 512, by omega⟩, flush0_5 _, ?_⟩
  rw [mem_blk]
  obtain ⟨-, -, -, -, -, ⟨e0, e1, e2⟩, -⟩ := idx_facts ⟨(i 0).val * 4 + (i 2).val / 512, by omega⟩
  have q0 : ((i 0).val * 4 + (i 2).val / 512) / 4 = (i 0).val := by omega
  have q2 : ((i 0).val * 4 + (i 2).val / 512) % 4 = (i 2).val / 512 := by omega
  rw [show (⟨(i 0).val * 4 + (i 2).val / 512, by omega⟩ : Fin cfg0.N).val = (i 0).val * 4 + (i 2).val / 512 from rfl] at e0 e2
  rw [q0] at e0
  rw [q2] at e2
  intro a
  match a with
  | ⟨0, _⟩ =>
    show win0_5.index _ (0 : Fin 3) * 1 ≤ (i 0).val ∧ (i 0).val < win0_5.index _ (0 : Fin 3) * 1 + 1
    omega
  | ⟨1, _⟩ =>
    show win0_5.index _ (1 : Fin 3) * 192 ≤ (i 1).val ∧ (i 1).val < win0_5.index _ (1 : Fin 3) * 192 + 192
    omega
  | ⟨2, _⟩ =>
    show win0_5.index _ (2 : Fin 3) * 512 ≤ (i 2).val ∧ (i 2).val < win0_5.index _ (2 : Fin 3) * 512 + 512
    omega

/-- The result array after the grid has run. -/
theorem final (c : Dev nD) : (dats m 0 c).arrAt 5 cfg0.N = out (aX m c) (aW m c) (aXm m c) (aYm m c) :=
  (dats m 0 c).arrAt_eq_of_cover 5 _ (fun t _ => flushed_eq m c t) cover

/-- Every weakly fair execution of the program terminates with the result array at the specification's array of the four
    arguments, the arguments unchanged. -/
theorem run : θ_run defs (onTc (τ := τ) (main (F := Ideal))) ⟨m, fun _ => 0, ρ⟩ fun r => ∀ c : Dev nD,
      r.2.mem ((c : Thread nD τ).loc main_v9) = out (aX m c) (aW m c) (aXm m c) (aYm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.ValueP.run_blocks m ρ)

end Cert.KernelIdeal.Hand

end
-- ==== Proof.RefTerm.lean ====
/-
  The reference program's result as one term of its four arguments, cut into named stages so that each stage can be read at an
  index by itself: the masked durations, their running totals, the comparison of every frame number with every total
  (`lt`), the same array moved one text position to the right with a zero column in front (`shifted`), their difference
  (the membership array), the masked input, the contraction over the text axis, and the frame mask.
-/
import proofs.«161288_j50697793962727_1_alg».proof.Proof.Gen.ReferenceIdeal

noncomputable section

namespace Cert.ReferenceIdeal.Hand

open Cert.ReferenceIdeal Cert.ReferenceIdeal.Gen Idealize.ShloMosaic

variable {F : FTy → Type} [FloatOps F]

/-- The masked durations. -/
def wm (w : IVec S16x512 32) (xmask : FVec F S16x512 .f32) : IVec S16x512 32 :=
  fptosi 32 (mulf (sitofp .f32 w) xmask)

/-- The rank-zero zero word the running sum starts from and pads with. -/
def zeroWord : IVec S_ 32 := broadcastInDim S_ ![] bcast_S_S_ (constantI S_ 32 0#32)

/-- The running totals of the masked durations along the text axis. -/
def cum (d : IVec S16x512 32) : IVec S16x512 32 :=
  Host.reduceWindow IntOp.addi ![1, 512] ![1, 1] ![0, 511] ![0, 0] d zeroWord
    reduceWindows_S16x512_S16x512_w1s1p0_0_w512s1p511_0 h_S_

/-- The frame numbers, spread over batch and text position. -/
def frames : IVec S16x2048x512 32 :=
  broadcastInDim S16x2048x512 ![0, 1, 2] bcast_S1x2048x1_S16x2048x512_0_1_2
    (broadcastInDim S1x2048x1 ![1] bcast_S2048_S1x2048x1_1 (iotaInDim S2048 32 0))

/-- The totals, spread over the frames. -/
def cumB (t : IVec S16x512 32) : IVec S16x2048x512 32 :=
  broadcastInDim S16x2048x512 ![0, 1, 2] bcast_S16x1x512_S16x2048x512_0_1_2
    (broadcastInDim S16x1x512 ![0, 2] bcast_S16x512_S16x1x512_0_2 t)

/-- `[frame < total]` as a float, for every batch entry, frame and text position. -/
def lt (t : IVec S16x512 32) : FVec F S16x2048x512 .f32 :=
  uitofp .f32 (cmpi .slt frames (cumB t))

/-- The same array moved one text position to the right, a column of zeros in front. -/
def shifted (l : FVec F S16x2048x512 .f32) : FVec F S16x2048x512 .f32 :=
  pad S16x2048x512 ![0, 0, 1] ![0, 0, 0] ![0, 0, 0]
    (extractStridedSlice S16x2048x511 ![0, 0, 0] l slices_S16x2048x512_S16x2048x511_0_0_0)
    (sitofp .f32 (constantI S_ 32 0#32) : FVec F S_ .f32)
    pads_S16x2048x511_S16x2048x512_000_000_100 h_S_

/-- The membership array. -/
def path (t : IVec S16x512 32) : FVec F S16x2048x512 .f32 :=
  subf (lt t) (shifted (lt t))

/-- The input times the text mask. -/
def xm (x : FVec F S16x192x512 .f32) (xmask : FVec F S16x512 .f32) : FVec F S16x192x512 .f32 :=
  mulf x (broadcastInDim S16x192x512 ![0, 1, 2] bcast_S16x1x512_S16x192x512_0_1_2
    (broadcastInDim S16x1x512 ![0, 2] bcast_S16x512_S16x1x512_0_2 xmask))

/-- The frame mask spread over the channels. -/
def ymB (ymask : FVec F S16x2048 .f32) : FVec F S16x192x2048 .f32 :=
  broadcastInDim S16x192x2048 ![0, 1, 2] bcast_S16x1x2048_S16x192x2048_0_1_2
    (broadcastInDim S16x1x2048 ![0, 2] bcast_S16x2048_S16x1x2048_0_2 ymask)

/-- The program's result. -/
def result (x : FVec F S16x192x512 .f32) (w : IVec S16x512 32) (xmask : FVec F S16x512 .f32)
    (ymask : FVec F S16x2048 .f32) : FVec F S16x192x2048 .f32 :=
  mulf (Host.dotGeneral dot_S16x192x512_S16x2048x512_S16x192x2048_2_2_1_1_0_0 none (xm x xmask) (path (cum (wm w xmask))))
    (ymB ymask)

end Cert.ReferenceIdeal.Hand

end
-- ==== Proof.RefRun.lean ====
/-
  The reference program runs to its result term: every operation of @main, the two outlined functions' operations in place of
  their calls, writes one buffer as a pure function of buffers written before it, so the last buffer ends at the
  composition of those functions over the four arguments, which no operation writes.
-/
import proofs.«161288_j50697793962727_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The twenty-five operations the program performs, in order: @main's twenty, with the running sum's three (the zero
    word, its rank-zero broadcast, the windowed sum) where @main calls the running sum, and the padding's two (the zero
    word as a float, the pad) where @main calls the padding. -/
abbrev ops : List (HloOp τ sig (Elt F)) :=
  [ unary main_arg1 main_v0 (sitofp .f32 : (⟨S16x512, .i32⟩ : BufTy).Contents (Elt F) → (⟨S16x512, .f32⟩ : BufTy).Contents (Elt F)),
    binary main_v0 main_arg2 main_v1 (mulf : (⟨S16x512, .f32⟩ : BufTy).Contents (Elt F) → (⟨S16x512, .f32⟩ : BufTy).Contents (Elt F) → (⟨S16x512, .f32⟩ : BufTy).Contents (Elt F)),
    unary main_v1 main_v2 (fptosi 32 : (⟨S16x512, .f32⟩ : BufTy).Contents (Elt F) → (⟨S16x512, .i32⟩ : BufTy).Contents (Elt F)),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_v2 : TRef sig ⟨S16x512, .i32⟩) (.of main_call0_call0_v0 : TRef sig ⟨S_, .i32⟩) (.of main_v3 : TRef sig ⟨S16x512, .i32⟩) (fun x v => Host.reduceWindow IntOp.addi ![1, 512] ![1, 1] ![0, 511] ![0, 0] x v reduceWindows_S16x512_S16x512_w1s1p0_0_w512s1p511_0 h_S_),
    nullary main_v4 (iotaInDim S2048 32 0),
    unary main_v4 main_v5 (broadcastInDim S1x2048x1 ![1] bcast_S2048_S1x2048x1_1 : (⟨S2048, .i32⟩ : BufTy).Contents (Elt F) → (⟨S1x2048x1, .i32⟩ : BufTy).Contents (Elt F)),
    unary main_v3 main_v6 (broadcastInDim S16x1x512 ![0, 2] bcast_S16x512_S16x1x512_0_2 : (⟨S16x512, .i32⟩ : BufTy).Contents (Elt F) → (⟨S16x1x512, .i32⟩ : BufTy).Contents (Elt F)),
    unary main_v5 main_v7 (broadcastInDim S16x2048x512 ![0, 1, 2] bcast_S1x2048x1_S16x2048x512_0_1_2 : (⟨S1x2048x1, .i32⟩ : BufTy).Contents (Elt F) → (⟨S16x2048x512, .i32⟩ : BufTy).Contents (Elt F)),
    unary main_v6 main_v8 (broadcastInDim S16x2048x512 ![0, 1, 2] bcast_S16x1x512_S16x2048x512_0_1_2 : (⟨S16x1x512, .i32⟩ : BufTy).Contents (Elt F) → (⟨S16x2048x512, .i32⟩ : BufTy).Contents (Elt F)),
    binary main_v7 main_v8 main_v9 (cmpi .slt : (⟨S16x2048x512, .i32⟩ : BufTy).Contents (Elt F) → (⟨S16x2048x512, .i32⟩ : BufTy).Contents (Elt F) → (⟨S16x2048x512, .i1⟩ : BufTy).Contents (Elt F)),
    unary main_v9 main_v10 (uitofp .f32 : (⟨S16x2048x512, .i1⟩ : BufTy).Contents (Elt F) → (⟨S16x2048x512, .f32⟩ : BufTy).Contents (Elt F)),
    unary main_v10 main_v11 ((extractStridedSlice S16x2048x511 ![0, 0, 0] · slices_S16x2048x512_S16x2048x511_0_0_0) : (⟨S16x2048x512, .f32⟩ : BufTy).Contents (Elt F) → (⟨S16x2048x511, .f32⟩ : BufTy).Contents (Elt F)),
    nullary main_c (constantI S_ 32 0#32),
    TRef.unary (.of main_c : TRef sig ⟨S_, .i32⟩) (.of main_call1_v0 : TRef sig ⟨S_, .f32⟩) (sitofp .f32),
    TRef.binary (.of main_v11 : TRef sig ⟨S16x2048x511, .f32⟩) (.of main_call1_v0 : TRef sig ⟨S_, .f32⟩) (.of main_v12 : TRef sig ⟨S16x2048x512, .f32⟩) (fun x v => pad S16x2048x512 ![0, 0, 1] ![0, 0, 0] ![0, 0, 0] x v pads_S16x2048x511_S16x2048x512_000_000_100 h_S_),
    binary main_v10 main_v12 main_v13 (subf : (⟨S16x2048x512, .f32⟩ : BufTy).Contents (Elt F) → (⟨S16x2048x512, .f32⟩ : BufTy).Contents (Elt F) → (⟨S16x2048x512, .f32⟩ : BufTy).Contents (Elt F)),
    unary main_arg2 main_v14 (broadcastInDim S16x1x512 ![0, 2] bcast_S16x512_S16x1x512_0_2 : (⟨S16x512, .f32⟩ : BufTy).Contents (Elt F) → (⟨S16x1x512, .f32⟩ : BufTy).Contents (Elt F)),
    unary main_v14 main_v15 (broadcastInDim S16x192x512 ![0, 1, 2] bcast_S16x1x512_S16x192x512_0_1_2 : (⟨S16x1x512, .f32⟩ : BufTy).Contents (Elt F) → (⟨S16x192x512, .f32⟩ : BufTy).Contents (Elt F)),
    binary main_arg0 main_v15 main_v16 (mulf : (⟨S16x192x512, .f32⟩ : BufTy).Contents (Elt F) → (⟨S16x192x512, .f32⟩ : BufTy).Contents (Elt F) → (⟨S16x192x512, .f32⟩ : BufTy).Contents (Elt F)),
    binary main_v16 main_v13 main_v17 ((fun l r => Host.dotGeneral dot_S16x192x512_S16x2048x512_S16x192x2048_2_2_1_1_0_0 none l r) : (⟨S16x192x512, .f32⟩ : BufTy).Contents (Elt F) → (⟨S16x2048x512, .f32⟩ : BufTy).Contents (Elt F) → (⟨S16x192x2048, .f32⟩ : BufTy).Contents (Elt F)),
    unary main_arg3 main_v18 (broadcastInDim S16x1x2048 ![0, 2] bcast_S16x2048_S16x1x2048_0_2 : (⟨S16x2048, .f32⟩ : BufTy).Contents (Elt F) → (⟨S16x1x2048, .f32⟩ : BufTy).Contents (Elt F)),
    unary main_v18 main_v19 (broadcastInDim S16x192x2048 ![0, 1, 2] bcast_S16x1x2048_S16x192x2048_0_1_2 : (⟨S16x1x2048, .f32⟩ : BufTy).Contents (Elt F) → (⟨S16x192x2048, .f32⟩ : BufTy).Contents (Elt F)),
    binary main_v17 main_v19 main_v20 (mulf : (⟨S16x192x2048, .f32⟩ : BufTy).Contents (Elt F) → (⟨S16x192x2048, .f32⟩ : BufTy).Contents (Elt F) → (⟨S16x192x2048, .f32⟩ : BufTy).Contents (Elt F)) ]

/-- @main is that straight line: a call is its callee's body at the call's buffers, and sequencing is associative. -/
theorem main_eq (c : Dev nD) : main (F := F) c = seq ops := rfl

/-- No buffer of the signature is scoped, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨unary_bufs_sub .., binary_bufs_sub .., unary_bufs_sub .., nullary_bufs_sub .., unary_bufs_sub .., binary_bufs_sub ..,
    nullary_bufs_sub .., unary_bufs_sub .., unary_bufs_sub .., unary_bufs_sub .., unary_bufs_sub .., binary_bufs_sub ..,
    unary_bufs_sub .., unary_bufs_sub .., nullary_bufs_sub .., unary_bufs_sub .., binary_bufs_sub .., binary_bufs_sub ..,
    unary_bufs_sub .., unary_bufs_sub .., binary_bufs_sub .., binary_bufs_sub .., unary_bufs_sub .., unary_bufs_sub ..,
    binary_bufs_sub ..⟩

/-- The fold of the operations at the last buffer is the result term: each operation's value is read at the buffer it
    writes and passed over at every other, the typed buffers' transports are the identity, and what is left is the
    composition the stages of the result term spell out. -/
theorem out_eq (V : Valuation τ sig (Elt F)) :
    after ops V (Proc.devRef .tc main_v20)
      = result (V (Proc.devRef .tc main_arg0)) (V (Proc.devRef .tc main_arg1)) (V (Proc.devRef .tc main_arg2))
          (V (Proc.devRef .tc main_arg3)) := by
  after_results_simp
  simp only [TRef.toBuf, TRef.ofBuf, cast_eq]
  unfold result xm path lt shifted cum wm zeroWord frames cumB ymB
  rfl

/-- No operation writes an argument: the fold leaves each where it was. -/
theorem arg0_eq (V : Valuation τ sig (Elt F)) :
    after ops V (Proc.devRef .tc main_arg0) = V (Proc.devRef .tc main_arg0) := by
  after_results_simp
theorem arg1_eq (V : Valuation τ sig (Elt F)) :
    after ops V (Proc.devRef .tc main_arg1) = V (Proc.devRef .tc main_arg1) := by
  after_results_simp
theorem arg2_eq (V : Valuation τ sig (Elt F)) :
    after ops V (Proc.devRef .tc main_arg2) = V (Proc.devRef .tc main_arg2) := by
  after_results_simp
theorem arg3_eq (V : Valuation τ sig (Elt F)) :
    after ops V (Proc.devRef .tc main_arg3) = V (Proc.devRef .tc main_arg3) := by
  after_results_simp

/-- On the one device, from any memory with zero counters: every weakly fair execution of @main terminates, the result
    buffer at `result` of the four arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v20).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.Hand

end
-- ==== Proof.RefValue.lean ====
/-
  The reference program's result term, read entry by entry at the exact instance, is the common specification: the contraction
  over the text axis is a sum over the 512 text positions of (input × text mask) × membership, the membership entry
  `[j < total i] − [j < total (i−1)]` comes from the comparison array and its copy moved one position right behind a zero
  column, and the frame mask multiplies the sum.
-/
import proofs.«161288_j50697793962727_1_alg».proof.Proof.RefTerm
import proofs.«161288_j50697793962727_1_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.ValueIdx

/-! ## The integer stages -/

/-- The masked durations are the specification's. -/
theorem wm_eq (w : IVec S16x512 32) (xmask : FVec Ideal S16x512 .f32) :
    wm (F := Ideal) w xmask = Cert.Spread.durations w xmask := rfl

/-- The running totals are the specification's: the word the window sum starts from is the zero word everywhere. -/
theorem cum_eq (d : IVec S16x512 32) : cum d = Cert.Spread.totals d := rfl

/-! ## The spread arrays read at an entry -/

/-- The frame-number array at batch entry `b`, frame `j`, text position `i` is the number `j` as a word. -/
theorem frames_apply (b : Fin 16) (j : Fin 2048) (i : Fin 512) :
    frames (ix3 b j i) = BitVec.ofNat 32 j.val := rfl

/-- The totals spread over the frames: entry `(b, j, i)` is the total at `(b, i)`. -/
theorem cumB_apply (t : IVec S16x512 32) (b : Fin 16) (j : Fin 2048) (i : Fin 512) :
    cumB t (ix3 b j i) = t (ix2 b i) := by
  unfold cumB
  refine (broadcastInDim_apply _ _ _ (ix3 b j i) (ix3 b (0 : Fin 1) i) ?_).trans ?_
  · intro a
    match a with
    | ⟨0, _⟩ => rfl
    | ⟨1, _⟩ => rfl
    | ⟨2, _⟩ => rfl
  · refine broadcastInDim_apply _ _ _ (ix3 b (0 : Fin 1) i) (ix2 b i) ?_
    intro a
    match a with
    | ⟨0, _⟩ => rfl
    | ⟨1, _⟩ => rfl

/-- The comparison array: entry `(b, j, i)` is `[j < total (b, i)]` as 0 or 1. -/
theorem lt_apply (t : IVec S16x512 32) (b : Fin 16) (j : Fin 2048) (i : Fin 512) :
    lt (F := Ideal) t (ix3 b j i) = Cert.Spread.below j (t (ix2 b i)) := by
  show ((((IntOp.cmpi .slt (frames (ix3 b j i)) (cumB t (ix3 b j i))).toNat : ℝ)) : EReal) = _
  rw [frames_apply, cumB_apply]
  rfl

/-- The zero word as a float is the number zero. -/
theorem padValue_eq :
    (sitofp .f32 (constantI S_ 32 0#32) : FVec Ideal S_ .f32) (Shape.Idx.first h_S_) = 0 := by
  show ((((0#32 : BitVec 32).toInt : ℝ)) : EReal) = 0
  rw [BitVec.toInt_zero, Int.cast_zero, EReal.coe_zero]

/-- The array moved one text position to the right: a zero at text position 0, the entry one position to the left
    everywhere else. -/
theorem shifted_apply (l : FVec Ideal S16x2048x512 .f32) (b : Fin 16) (j : Fin 2048) (i : Fin 512) :
    shifted l (ix3 b j i)
      = if h : i.val = 0 then 0 else l (ix3 b j (⟨i.val - 1, by omega⟩ : Fin 512)) := by
  unfold shifted
  by_cases h : i.val = 0
  · rw [dif_pos h]
    refine (pad_apply_of_not_inside _ _ _ _ _ _ _ (ix3 b j i) (⟨2, by decide⟩ : Fin 3) ?_).trans padValue_eq
    intro hin
    have h1 : 1 ≤ i.val := hin.1
    omega
  · rw [dif_neg h]
    have hi : i.val - 1 < 511 := by omega
    refine (pad_apply_of_inside _ _ _ _ _ _ _ (ix3 b j i) (ix3 b j (⟨i.val - 1, hi⟩ : Fin 511)) ?_).trans ?_
    · intro a
      match a with
      | ⟨0, _⟩ => show b.val = 0 + b.val * (0 + 1); omega
      | ⟨1, _⟩ => show j.val = 0 + j.val * (0 + 1); omega
      | ⟨2, _⟩ => show i.val = 1 + (i.val - 1) * (0 + 1); omega
    · refine extractStridedSlice_apply _ _ _ (ix3 b j (⟨i.val - 1, hi⟩ : Fin 511))
        (ix3 b j (⟨i.val - 1, by omega⟩ : Fin 512)) ?_
      intro a
      match a with
      | ⟨0, _⟩ => show b.val = 0 + b.val; omega
      | ⟨1, _⟩ => show j.val = 0 + j.val; omega
      | ⟨2, _⟩ => show i.val - 1 = 0 + (i.val - 1); omega

/-- The membership array read at an entry is the specification's membership number. -/
theorem path_apply (t : IVec S16x512 32) (b : Fin 16) (j : Fin 2048) (i : Fin 512) :
    path (F := Ideal) t (ix3 b j i) = Cert.Spread.member t b j i := by
  show lt (F := Ideal) t (ix3 b j i) - shifted (lt (F := Ideal) t) (ix3 b j i) = _
  rw [shifted_apply, lt_apply]
  unfold Cert.Spread.member Cert.Spread.belowPrev
  by_cases h : i.val = 0
  · rw [dif_pos h, dif_pos h]
  · rw [dif_neg h, dif_neg h, lt_apply]

/-- The masked input: entry `(b, c, i)` is the input there times the text mask at `(b, i)`. -/
theorem xm_apply (x : FVec Ideal S16x192x512 .f32) (xmask : FVec Ideal S16x512 .f32) (b : Fin 16) (c : Fin 192)
    (i : Fin 512) : xm x xmask (ix3 b c i) = x (ix3 b c i) * xmask (ix2 b i) := by
  unfold xm
  rw [mulf_apply]
  congr 1
  refine (broadcastInDim_apply _ _ _ (ix3 b c i) (ix3 b (0 : Fin 1) i) ?_).trans ?_
  · intro a
    match a with
    | ⟨0, _⟩ => rfl
    | ⟨1, _⟩ => rfl
    | ⟨2, _⟩ => rfl
  · refine broadcastInDim_apply _ _ _ (ix3 b (0 : Fin 1) i) (ix2 b i) ?_
    intro a
    match a with
    | ⟨0, _⟩ => rfl
    | ⟨1, _⟩ => rfl

/-- The frame mask spread over the channels: entry `(b, c, j)` is the mask at `(b, j)`. -/
theorem ymB_apply (ymask : FVec Ideal S16x2048 .f32) (b : Fin 16) (c : Fin 192) (j : Fin 2048) :
    ymB ymask (ix3 b c j) = ymask (ix2 b j) := by
  unfold ymB
  refine (broadcastInDim_apply _ _ _ (ix3 b c j) (ix3 b (0 : Fin 1) j) ?_).trans ?_
  · intro a
    match a with
    | ⟨0, _⟩ => rfl
    | ⟨1, _⟩ => rfl
    | ⟨2, _⟩ => rfl
  · refine broadcastInDim_apply _ _ _ (ix3 b (0 : Fin 1) j) (ix2 b j) ?_
    intro a
    match a with
    | ⟨0, _⟩ => rfl
    | ⟨1, _⟩ => rfl

/-! ## The contraction over the text axis -/

/-- The batched product read at an entry: batch axis 0 of both factors, text axis 2 of both contracted, so entry
    `(b, c, j)` is the sum over the text positions `i` of the left factor at `(b, c, i)` times the right factor at
    `(b, j, i)`. -/
theorem dot_apply (A : FVec Ideal S16x192x512 .f32) (B : FVec Ideal S16x2048x512 .f32) (b : Fin 16) (c : Fin 192)
    (j : Fin 2048) :
    Host.dotGeneral dot_S16x192x512_S16x2048x512_S16x192x2048_2_2_1_1_0_0 none A B (ix3 b c j)
      = ∑ i : Fin 512, A (ix3 b c i) * B (ix3 b j i) := by
  show FloatOps.dotGeneral dot_S16x192x512_S16x2048x512_S16x192x2048_2_2_1_1_0_0 none _ A B (ix3 b c j) = _
  rw [Ideal.dotGeneral_apply,
    ← Equiv.sum_comp (contrEquiv1 dot_S16x192x512_S16x2048x512_S16x192x2048_2_2_1_1_0_0 512 rfl rfl).symm]
  refine Finset.sum_congr rfl fun i _ => ?_
  have c3 := contrEquiv1_symm_val dot_S16x192x512_S16x2048x512_S16x192x2048_2_2_1_1_0_0 512 rfl rfl i
  have l3 : dot_S16x192x512_S16x2048x512_S16x192x2048_2_2_1_1_0_0.lhsIdx (ix3 b c j)
      ((contrEquiv1 dot_S16x192x512_S16x2048x512_S16x192x2048_2_2_1_1_0_0 512 rfl rfl).symm i) = ix3 b c i := by
    funext ax; apply Fin.ext
    match ax with
    | ⟨0, _⟩ => simp [DotDims.lhsIdx, dot_S16x192x512_S16x2048x512_S16x192x2048_2_2_1_1_0_0]; rfl
    | ⟨1, _⟩ => simp [DotDims.lhsIdx, dot_S16x192x512_S16x2048x512_S16x192x2048_2_2_1_1_0_0]; rfl
    | ⟨2, _⟩ => simp [DotDims.lhsIdx, dot_S16x192x512_S16x2048x512_S16x192x2048_2_2_1_1_0_0]; exact c3
  have r3 : dot_S16x192x512_S16x2048x512_S16x192x2048_2_2_1_1_0_0.rhsIdx (ix3 b c j)
      ((contrEquiv1 dot_S16x192x512_S16x2048x512_S16x192x2048_2_2_1_1_0_0 512 rfl rfl).symm i) = ix3 b j i := by
    funext ax; apply Fin.ext
    match ax with
    | ⟨0, _⟩ => simp [DotDims.rhsIdx, dot_S16x192x512_S16x2048x512_S16x192x2048_2_2_1_1_0_0]; rfl
    | ⟨1, _⟩ => simp [DotDims.rhsIdx, dot_S16x192x512_S16x2048x512_S16x192x2048_2_2_1_1_0_0]; rfl
    | ⟨2, _⟩ => simp [DotDims.rhsIdx, dot_S16x192x512_S16x2048x512_S16x192x2048_2_2_1_1_0_0]; exact c3
  rw [l3, r3]

/-! ## The result -/

/-- The result term at the exact instance is the specification's array. -/
theorem result_eq (x : FVec Ideal S16x192x512 .f32) (w : IVec S16x512 32) (xmask : FVec Ideal S16x512 .f32)
    (ymask : FVec Ideal S16x2048 .f32) :
    result (F := Ideal) x w xmask ymask = Cert.Spread.out x w xmask ymask := by
  funext y
  obtain ⟨b, c, j, rfl⟩ : ∃ (b : Fin 16) (c : Fin 192) (j : Fin 2048), y = ix3 b c j := ⟨y 0, y 1, y 2, eq_ix3 y⟩
  rw [Cert.Spread.out_apply]
  unfold result Cert.Spread.outAt
  rw [mulf_apply, dot_apply, ymB_apply, wm_eq, cum_eq]
  congr 1
  refine Finset.sum_congr rfl fun i _ => ?_
  rw [xm_apply, path_apply]

end Cert.ReferenceIdeal.Hand

end
-- ==== Proof.lean ====
/-
  The five claims about one kernel and its reference.

  The kernel spreads a (16, 192, 512) input along 2048 frames: each of the 512 text positions of a batch entry has an integer
  duration, the running totals of the (masked) durations cut the frame axis into consecutive segments, and frame `j` takes
  the masked input of the text position whose segment holds it; the frame mask multiplies the result.  It does so by a
  contraction over the text axis with the 0/1 membership array `[j < total k] − [j < total k − duration k]`, built per block
  of 512 frames on a 16 × 4 grid.  The reference builds the membership array as `[j < total k] − [j < total (k−1)]`, the
  second term an array moved one text position right behind a zero column, and contracts once over the whole array.

  Over the extended reals both are the same function of the four arguments (`Cert.Spread.out`): a total less its own duration
  is the previous total, and zero at the first position, whether or not the word sums wrap, and no frame number is below
  zero; the two contractions are the same sum of the same products, so no law of the extended reals beyond equality of terms
  is used and the finiteness of the inputs is never needed.

  The three frames: the kernel's frame at both instances is the body's run at every grid point under the pipeline's launch;
  the reference's is its run with the result dropped.  The idealization rewrote no operation.
-/
import proofs.«161288_j50697793962727_1_alg».proof.Defs
import proofs.«161288_j50697793962727_1_alg».proof.Proof.Gen.Kernel
import proofs.«161288_j50697793962727_1_alg».proof.Proof.Gen.KernelIdeal
import proofs.«161288_j50697793962727_1_alg».proof.Proof.Gen.ReferenceIdeal
import proofs.«161288_j50697793962727_1_alg».proof.Proof.Gen.Pre_finite_inputs
import proofs.«161288_j50697793962727_1_alg».proof.Proof.KernelFrame
import proofs.«161288_j50697793962727_1_alg».proof.Proof.KernelIdealFrame
import proofs.«161288_j50697793962727_1_alg».proof.Proof.KernelValue
import proofs.«161288_j50697793962727_1_alg».proof.Proof.RefRun
import proofs.«161288_j50697793962727_1_alg».proof.Proof.RefValue
import Idealize.ShloMosaic.Adequacy
import Idealize.ShloMosaic.Init

noncomputable section

namespace Cert.Proof

open Idealize.ShloMosaic Idealize.SL.Sem

/-- The kernel as printed terminates without a fault and leaves its arguments as they were. -/
theorem frame_k : Cert.frame_Kernel := fun m ρ _ => Cert.Kernel.GenP.frame m ρ

/-- So does the kernel read over the extended reals. -/
theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories agreeing on the four arguments both programs end with the specification's array of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact Cert.ReferenceIdeal.Hand.result_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
